-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S50000x128 .f32) (main_arg1 : IVec S2x800000 32) (main_arg2 : FVec F S128x128 .f32) (main_arg3 : FVec F S128 .f32) (main_arg4 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S2000x128 : Shape := ⟨2, ![2000, 128]⟩
abbrev S2000x1 : Shape := ⟨2, ![2000, 1]⟩
abbrev S2000 : Shape := ⟨1, ![2000]⟩

abbrev nBuf : Space → Nat
  | .hbm => 31
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S50000x1, .f32⟩
  | .hbm, ⟨29, _⟩ => ⟨S1x128, .f32⟩
  | .hbm, ⟨30, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_1_0_0_n_n_wf : DotDims.WF S2000x128 S128x128 S2000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_1_0_0_n_n : DotDims S2000x128 S128x128 S2000x128 where
  lhsContracting := [1]
  rhsContracting := [1]
  lhsNonContracting := [0]
  rhsNonContracting := [0]
  lhsBatch := []
  rhsBatch := []
  wf := dot_S2000x128_S128x128_S2000x128_1_1_0_0_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 55
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S128x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S128x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000, .f32⟩
  | .hbm, ⟨45, _⟩ => ⟨S50000x1, .f32⟩
  | .hbm, ⟨46, _⟩ => ⟨S50000x1, .f32⟩
  | .hbm, ⟨47, _⟩ => ⟨S_, .f32⟩
  | .hbm, ⟨48, _⟩ => ⟨S50000x1, .f32⟩
  | .hbm, ⟨49, _⟩ => ⟨S50000x1, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S50000x128, .f32⟩
  | .hbm, ⟨54, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_v0 : Ref sig .tc := ⟨.hbm, 42, rfl⟩
abbrev main_call0_cst : Ref sig .tc := ⟨.hbm, 43, rfl⟩
abbrev main_call0_v1 : Ref sig .tc := ⟨.hbm, 44, rfl⟩
abbrev main_call0_v2 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call1_cst : Ref sig .tc := ⟨.hbm, 52, rfl⟩
abbrev main_call1_v0 : Ref sig .tc := ⟨.hbm, 53, rfl⟩
abbrev main_v36 : Ref sig .tc := ⟨.hbm, 54, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  A mean-aggregation graph convolution, one node at a time, on the extended reals.

  A node has a feature row `x`, the sum `a` of its in-neighbours' feature rows and the number `n` of those
  neighbours. The layer first forms, for each output feature `q`,
      y q = (∑ k, (a k / max n 1) · Wl (q, k)) + b q + ∑ k, x k · Wr (q, k),
  the neighbour mean through one weight matrix plus a bias plus the node's own row through a second matrix (both
  matrices are applied by their ROWS: feature `q` pairs row `q` of each matrix with the input row). It then scales the
  row `y` to unit Euclidean length, the length floored at a small positive constant, and clips what is negative:
      out q = max (y q / max (sqrt (∑ j, y j · y j)) ε) 0.
  Nothing here is rounded: a sum is a sum in any order, and the three constants are the values their binary32
  patterns denote, the same patterns wherever the layer is written down.
-/
import Idealize.ShloMosaic.PureOps.Ideal.Laws
import Idealize.ShloMosaic.Lib.ValueIdx

noncomputable section

namespace Cert.Sage

open Idealize.ShloMosaic Idealize.ShloMosaic.ValueIdx

/-- A 128 × 128 weight matrix. -/
abbrev Mat : Type := (⟨2, ![128, 128]⟩ : Shape).Idx → EReal

/-- The floor of the neighbour count. -/
abbrev one : EReal := Ideal.ofBits .f32 0x3F800000#32
/-- The floor of the row's length. -/
abbrev eps : EReal := Ideal.ofBits .f32 0x2B8CBCCC#32
/-- The clip level. -/
abbrev zero : EReal := Ideal.ofBits .f32 0x00000000#32

/-- The node's row before it is normalised: neighbour mean through `wl`, plus bias, plus own row through `wr`. -/
def lin (x a : Fin 128 → EReal) (n : EReal) (wl wr : Mat) (b : Fin 128 → EReal) (q : Fin 128) : EReal :=
  (∑ k : Fin 128, Ideal.div (a k) (max n one) * wl (ix2 q k)) + b q + ∑ k : Fin 128, x k * wr (ix2 q k)

/-- The node's output row: `lin` scaled to unit length (the length floored at `eps`), negatives clipped. -/
def rowOut (x a : Fin 128 → EReal) (n : EReal) (wl wr : Mat) (b : Fin 128 → EReal) (q : Fin 128) : EReal :=
  max (Ideal.div (lin x a n wl wr b q)
    (max (Ideal.sqrt (∑ j : Fin 128, lin x a n wl wr b j * lin x a n wl wr b j)) eps)) zero

/-- The whole layer over 50000 nodes: entry `(p, q)` is node `p`'s output row at `q`, from row `p` of the features,
    row `p` of the neighbour sums and entry `p` of the neighbour counts. -/
def layer (x agg : (⟨2, ![50000, 128]⟩ : Shape).Idx → EReal) (cnt : (⟨1, ![50000]⟩ : Shape).Idx → EReal)
    (wl wr : Mat) (b : (⟨1, ![128]⟩ : Shape).Idx → EReal) : (⟨2, ![50000, 128]⟩ : Shape).Idx → EReal :=
  fun i => rowOut (fun k => x (ix2 (i 0) k)) (fun k => agg (ix2 (i 0) k)) (cnt (ix1 (i 0))) wl wr (fun q => b (ix1 q)) (i 1)

theorem layer_apply (x agg : (⟨2, ![50000, 128]⟩ : Shape).Idx → EReal) (cnt : (⟨1, ![50000]⟩ : Shape).Idx → EReal)
    (wl wr : Mat) (b : (⟨1, ![128]⟩ : Shape).Idx → EReal) (p : Fin 50000) (q : Fin 128) :
    layer x agg cnt wl wr b (ix2 p q)
      = rowOut (fun k => x (ix2 p k)) (fun k => agg (ix2 p k)) (cnt (ix1 p)) wl wr (fun q => b (ix1 q)) q := rfl

end Cert.Sage

end
-- ==== Proof.Body.lean ====
/-
  What the kernel body computes on one block of 2000 nodes.

  The body loads a block of feature rows, the same block of neighbour sums, the block's column of neighbour counts
  and the two weight matrices and the bias whole. It divides each summed row by its floored count, multiplies by each
  weight matrix contracting the matrices' SECOND axis (so output feature `q` meets row `q` of a matrix: no transpose
  is formed), adds the bias row, and normalises and clips each row. The narrowing of the products' operands to
  sixteen bits changes nothing on the extended reals, and a product into a zero accumulator is the plain sum over
  the contracted index. So at block entry `(r, q)` the body's value is the layer's row function of block row `r`.
-/
import proofs.«180660_j43593918054565_1_alg».proof.Proof.Gen.KernelIdeal.Skeleton
import proofs.«180660_j43593918054565_1_alg».proof.Proof.Spec
import Idealize.ShloMosaic.Lib.Pipeline.Value
import Idealize.ShloMosaic.Lib.ValueIdx
import Idealize.ShloMosaic.PureOps.Ideal.Laws

noncomputable section

namespace Cert.Sage.Body

open Idealize.ShloMosaic Idealize.ShloMosaic.ValueIdx Cert.KernelIdeal Cert.KernelIdeal.Gen

/-! The product's operand indices: at output entry `i` and contraction position `κ` the left operand is read at
    `(i 0, κ)` and the right operand at `(i 1, κ)`. -/

theorem lhs_rows_0 (i : S2000x128.Idx) (κ : dot_S2000x128_S128x128_S2000x128_1_1_0_0_n_n.contr.Idx) :
    (dot_S2000x128_S128x128_S2000x128_1_1_0_0_n_n.lhsIdx i κ 0).val = (i 0).val := by
  unfold DotDims.lhsIdx
  rw [dif_neg (show ¬(0 : Fin S2000x128.rank) ∈ dot_S2000x128_S128x128_S2000x128_1_1_0_0_n_n.lhsBatch by decide), dif_pos (show (0 : Fin S2000x128.rank) ∈ dot_S2000x128_S128x128_S2000x128_1_1_0_0_n_n.lhsNonContracting by decide)]
  rfl
theorem lhs_rows_1 (i : S2000x128.Idx) (κ : dot_S2000x128_S128x128_S2000x128_1_1_0_0_n_n.contr.Idx) :
    (dot_S2000x128_S128x128_S2000x128_1_1_0_0_n_n.lhsIdx i κ 1).val = (κ ⟨0, by decide⟩).val :=
  dot_S2000x128_S128x128_S2000x128_1_1_0_0_n_n.lhsIdx_val_of_single rfl i κ
theorem rhs_rows_0 (i : S2000x128.Idx) (κ : dot_S2000x128_S128x128_S2000x128_1_1_0_0_n_n.contr.Idx) :
    (dot_S2000x128_S128x128_S2000x128_1_1_0_0_n_n.rhsIdx i κ 0).val = (i 1).val := by
  unfold DotDims.rhsIdx
  rw [dif_neg (show ¬(0 : Fin S128x128.rank) ∈ dot_S2000x128_S128x128_S2000x128_1_1_0_0_n_n.rhsBatch by decide), dif_pos (show (0 : Fin S128x128.rank) ∈ dot_S2000x128_S128x128_S2000x128_1_1_0_0_n_n.rhsNonContracting by decide)]
  rfl
theorem rhs_rows_1 (i : S2000x128.Idx) (κ : dot_S2000x128_S128x128_S2000x128_1_1_0_0_n_n.contr.Idx) :
    (dot_S2000x128_S128x128_S2000x128_1_1_0_0_n_n.rhsIdx i κ 1).val = (κ ⟨0, by decide⟩).val :=
  dot_S2000x128_S128x128_S2000x128_1_1_0_0_n_n.rhsIdx_val_of_single rfl i κ

/-- A product of a `[2000, 128]` block with a `[128, 128]` matrix along both second axes, into the zero accumulator,
    at `(r, q)`: the sum over `k` of the block at `(r, k)` times the matrix at `(q, k)`. -/
theorem matmul_rows (a : FVec Ideal S2000x128 .bf16) (w : FVec Ideal S128x128 .bf16) (r : Fin 2000) (q : Fin 128) :
    matmul dot_S2000x128_S128x128_S2000x128_1_1_0_0_n_n none a w (constant (F := Ideal) S2000x128 .f32 0x00000000#32) (ix2 r q)
      = ∑ k : Fin 128, a (ix2 r k) * w (ix2 q k) := by
  simp only [matmul]
  rw [Ideal.matmul_constant_zero_apply, ← Equiv.sum_comp (contrEquiv1 dot_S2000x128_S128x128_S2000x128_1_1_0_0_n_n 128 rfl rfl).symm]
  refine Finset.sum_congr rfl fun k _ => ?_
  have hk := contrEquiv1_symm_val dot_S2000x128_S128x128_S2000x128_1_1_0_0_n_n 128 rfl rfl k
  have el : dot_S2000x128_S128x128_S2000x128_1_1_0_0_n_n.lhsIdx (ix2 r q) ((contrEquiv1 dot_S2000x128_S128x128_S2000x128_1_1_0_0_n_n 128 rfl rfl).symm k) = ix2 r k := funext fun a => Fin.ext (by
    match a with
    | ⟨0, _⟩ => exact lhs_rows_0 _ _
    | ⟨1, _⟩ => exact (lhs_rows_1 _ _).trans hk)
  have er : dot_S2000x128_S128x128_S2000x128_1_1_0_0_n_n.rhsIdx (ix2 r q) ((contrEquiv1 dot_S2000x128_S128x128_S2000x128_1_1_0_0_n_n 128 rfl rfl).symm k) = ix2 q k := funext fun a => Fin.ext (by
    match a with
    | ⟨0, _⟩ => exact rhs_rows_0 _ _
    | ⟨1, _⟩ => exact (rhs_rows_1 _ _).trans hk)
  rw [el, er]

/-- The sum of a block along its feature axis, at row `r`: the sum of the row's 128 entries. -/
theorem rowsum (y : FVec Ideal S2000x128 .f32) (h : S2000x128.Reduces [1] S2000) (hφ : FKind.Formats .f32)
    (hacc : (0x00000000#32 : BitVec 32) = 0x00000000#32) (r : Fin 2000) :
    multiReduction .add [1] S2000 y 0x00000000#32 h hφ hacc (ix1 r) = ∑ j : Fin 128, y (ix2 r j) := by
  refine (Ideal.multiReduction_add_single y 0x00000000#32 h hφ hacc (ix1 r)).trans ?_
  refine Finset.sum_congr rfl fun k _ => congrArg y (funext fun a => Fin.ext ?_)
  match a with
  | ⟨0, _⟩ => rfl
  | ⟨1, _⟩ => rfl

/-- A column `[2000, 1]` spread over 128 features reads, at `(r, q)`, the column at `r`. -/
theorem col_spread {α : Type} (v : S2000x1.Idx → α) (h : S2000x1.Broadcasts S2000x128) (r : Fin 2000) (q : Fin 128) :
    broadcastTo S2000x128 v h (ix2 r q) = v (ix2 r 0) :=
  broadcastTo_apply v h (ix2 r q) (ix2 r 0) fun a => by
    match a with
    | ⟨0, _⟩ => show r.val = if (2000 : Nat) = 1 then 0 else r.val; rw [if_neg (by decide)]
    | ⟨1, _⟩ => show 0 = if (1 : Nat) = 1 then 0 else q.val; rw [if_pos rfl]

/-- A row `[1, 128]` spread over 2000 nodes reads, at `(r, q)`, the row at `q`. -/
theorem row_spread {α : Type} (v : S1x128.Idx → α) (h : S1x128.Broadcasts S2000x128) (r : Fin 2000) (q : Fin 128) :
    broadcastTo S2000x128 v h (ix2 r q) = v (ix2 0 q) :=
  broadcastTo_apply v h (ix2 r q) (ix2 0 q) fun a => by
    match a with
    | ⟨0, _⟩ => show 0 = if (1 : Nat) = 1 then 0 else r.val; rw [if_pos rfl]
    | ⟨1, _⟩ => show q.val = if (128 : Nat) = 1 then 0 else q.val; rw [if_neg (by decide)]

/-- A vector `[2000]` viewed as a column `[2000, 1]` reads, at `(r, 0)`, the vector at `r`. -/
theorem as_col {α : Type} (v : S2000.Idx → α) (h : S2000.ShapeCasts S2000x1) (r : Fin 2000) (z : Fin 1) :
    shapeCast S2000x1 v h (ix2 r z) = v (ix1 r) :=
  shapeCast_apply v h (ix2 r z) (ix1 r) (by
    rw [Shape.rowMajor_val_one, Shape.rowMajor_val_two]
    have hz : z.val = 0 := by omega
    show r.val = r.val * 1 + z.val
    omega)

/-- The block of rows before normalisation, as the body computes it from the blocks it loads. -/
def linBlk (v0 v1 : Vec Ideal S2000x128 .f32) (v3 : Vec Ideal S2000x1 .f32) (v11 v13 : Vec Ideal S128x128 .f32) (v15 : Vec Ideal S1x128 .f32) :
    FVec Ideal S2000x128 .f32 :=
  addf (addf
      (matmul dot_S2000x128_S128x128_S2000x128_1_1_0_0_n_n none
        (truncf .bf16 (divf (shapeCast S2000x128 v1 shapeCasts_S2000x128_S2000x128)
          (broadcastTo S2000x128 (maximumf (shapeCast S2000x1 v3 shapeCasts_S2000x1_S2000x1) (broadcast S2000x1 (Scalar.ofBits .f32 0x3F800000#32))) broadcasts_S2000x1_S2000x128)) bitsLt_bf16_f32)
        (truncf .bf16 v11 bitsLt_bf16_f32) (constant S2000x128 .f32 0x00000000#32))
      (broadcastTo S2000x128 (shapeCast S1x128 v15 shapeCasts_S1x128_S1x128) broadcasts_S1x128_S2000x128))
    (matmul dot_S2000x128_S128x128_S2000x128_1_1_0_0_n_n none (truncf .bf16 v0 bitsLt_bf16_f32) (truncf .bf16 v13 bitsLt_bf16_f32) (constant S2000x128 .f32 0x00000000#32))

/-- A block of rows scaled to unit length and clipped, as the body computes it. -/
def normBlk (y : FVec Ideal S2000x128 .f32) : FVec Ideal S2000x128 .f32 :=
  maximumf (divf y (broadcastTo S2000x128
      (maximumf (sqrt (shapeCast S2000x1 (multiReduction .add [1] S2000 (mulf y y) 0x00000000#32 reduces_S2000x128_S2000 (.inl rfl) rfl) shapeCasts_S2000_S2000x1))
        (broadcast S2000x1 (Scalar.ofBits .f32 0x2B8CBCCC#32))) broadcasts_S2000x1_S2000x128))
    (broadcast S2000x128 (Scalar.ofBits .f32 0x00000000#32))

/-- The body's stored value is the normalisation of the block of rows. -/
theorem pay_eq (v0 v1 : Vec Ideal S2000x128 .f32) (v3 : Vec Ideal S2000x1 .f32) (v11 v13 : Vec Ideal S128x128 .f32) (v15 : Vec Ideal S1x128 .f32) :
    k0_pay1 (F := Ideal) v0 v1 v3 v11 v13 v15 = normBlk (linBlk v0 v1 v3 v11 v13 v15) := rfl

/-- The block of rows at `(r, q)` is the layer's pre-normalisation row of block row `r`, at `q`. -/
theorem linBlk_apply (v0 v1 : Vec Ideal S2000x128 .f32) (v3 : Vec Ideal S2000x1 .f32) (v11 v13 : Vec Ideal S128x128 .f32) (v15 : Vec Ideal S1x128 .f32)
    (r : Fin 2000) (q : Fin 128) :
    linBlk v0 v1 v3 v11 v13 v15 (ix2 r q)
      = lin (fun k => v0 (ix2 r k)) (fun k => v1 (ix2 r k)) (v3 (ix2 r 0)) v11 v13 (fun q => v15 (ix2 0 q)) q := by
  unfold linBlk lin
  simp only [shapeCast_self]
  rw [addf_apply, addf_apply, matmul_rows, matmul_rows, row_spread]
  refine congrArg₂ (· + ·) (congrArg₂ (· + ·) (Finset.sum_congr rfl fun k _ => ?_) rfl) (Finset.sum_congr rfl fun k _ => rfl)
  rw [truncf_apply, truncf_apply, divf_apply, col_spread]
  rfl

/-- Normalising a block: entry `(r, q)` is divided by row `r`'s floored length, then clipped at zero. -/
theorem normBlk_apply (y : FVec Ideal S2000x128 .f32) (r : Fin 2000) (q : Fin 128) :
    normBlk y (ix2 r q) = max (Ideal.div (y (ix2 r q)) (max (Ideal.sqrt (∑ j : Fin 128, y (ix2 r j) * y (ix2 r j))) eps)) zero := by
  unfold normBlk
  rw [maximumf_apply, divf_apply, col_spread, maximumf_apply]
  show max (Ideal.div _ (max (Ideal.sqrt (shapeCast S2000x1 _ _ (ix2 r 0))) _)) _ = _
  rw [as_col, rowsum]
  rfl

/-- The body's stored value at `(r, q)` is the layer's output row of block row `r`, at `q`. -/
theorem pay_apply (v0 v1 : Vec Ideal S2000x128 .f32) (v3 : Vec Ideal S2000x1 .f32) (v11 v13 : Vec Ideal S128x128 .f32) (v15 : Vec Ideal S1x128 .f32)
    (r : Fin 2000) (q : Fin 128) :
    k0_pay1 (F := Ideal) v0 v1 v3 v11 v13 v15 (ix2 r q)
      = rowOut (fun k => v0 (ix2 r k)) (fun k => v1 (ix2 r k)) (v3 (ix2 r 0)) v11 v13 (fun q => v15 (ix2 0 q)) q := by
  rw [pay_eq, normBlk_apply]
  simp only [linBlk_apply]
  rfl

end Cert.Sage.Body

end
-- ==== Proof.Blocks.lean ====
/-
  From blocks to the whole array.

  The grid has 25 points; point `t` works on nodes `2000 t … 2000 t + 1999`: it is handed rows `2000 t …` of the
  features, of the neighbour sums and of the neighbour-count column, and the two weight matrices and the bias row
  whole, and it writes rows `2000 t …` of the result. Block entry `(r, q)` therefore sits at array entry
  `(2000 t + r, q)`, and since the layer's value at a node uses only that node's rows, what point `t` writes back is
  block `t` of the layer applied to the whole arrays. The 25 blocks tile the 50000 rows (row `p` lies in block
  `p / 2000`), so the result array ends holding the layer everywhere. Last, the count column is the count vector laid
  out as a column and the bias row is the bias vector viewed as a row, so the layer is one of the argument arrays and
  of the neighbour sums and counts that the host operations before the region computed.
-/
import proofs.«180660_j43593918054565_1_alg».proof.Proof.Gen.KernelIdeal.Value
import proofs.«180660_j43593918054565_1_alg».proof.Proof.Body
import Idealize.ShloMosaic.Lib.Pipeline.Value
import Idealize.ShloMosaic.Lib.StableHlo.Run

noncomputable section

namespace Cert.Sage.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

set_option maxHeartbeats 1000000 in
/-- The block index of every window at every grid point: the three row-blocked inputs and the output are at block
    `(t, 0)`, the two matrices and the bias row at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! A block read through its window: block entry `y` of a row-blocked array is array entry `(2000 t + y 0, y 1)`;
    a window that holds its whole array reads the array. Each is stated for any contents `A` of the array. -/

theorem read_x (t : Fin cfg0.N) (A : (⟨S50000x128, .f32⟩ : BufTy).Contents (Elt Ideal)) (y : S2000x128.Idx) (i : S50000x128.Idx)
    (h0 : (i 0).val = 2000 * t.val + (y 0).val) (h1 : (i 1).val = (y 1).val) :
    (((cfg0.win 0).blk t).view.read (Elt Ideal) A : Vec Ideal S2000x128 .f32) y = A i := by
  obtain ⟨e0, e1, -⟩ := idx_facts t
  rw [View.read_apply]
  show A _ = A _
  refine congrArg A (funext fun a => Fin.ext ?_)
  match a with
  | ⟨0, _⟩ => show win0_0.index t (0 : Fin 2) * 2000 + 1 * (y 0).val = (i 0).val; rw [e0, h0]; omega
  | ⟨1, _⟩ => show win0_0.index t (1 : Fin 2) * 128 + 1 * (y 1).val = (i 1).val; rw [e1, h1]; omega

theorem read_a (t : Fin cfg0.N) (A : (⟨S50000x128, .f32⟩ : BufTy).Contents (Elt Ideal)) (y : S2000x128.Idx) (i : S50000x128.Idx)
    (h0 : (i 0).val = 2000 * t.val + (y 0).val) (h1 : (i 1).val = (y 1).val) :
    (((cfg0.win 1).blk t).view.read (Elt Ideal) A : Vec Ideal S2000x128 .f32) y = A i := by
  obtain ⟨-, -, e0, e1, -⟩ := idx_facts t
  rw [View.read_apply]
  show A _ = A _
  refine congrArg A (funext fun a => Fin.ext ?_)
  match a with
  | ⟨0, _⟩ => show win0_1.index t (0 : Fin 2) * 2000 + 1 * (y 0).val = (i 0).val; rw [e0, h0]; omega
  | ⟨1, _⟩ => show win0_1.index t (1 : Fin 2) * 128 + 1 * (y 1).val = (i 1).val; rw [e1, h1]; omega

theorem read_c (t : Fin cfg0.N) (C : (⟨S50000x1, .f32⟩ : BufTy).Contents (Elt Ideal)) (y : S2000x1.Idx) (i : S50000x1.Idx)
    (h0 : (i 0).val = 2000 * t.val + (y 0).val) :
    (((cfg0.win 2).blk t).view.read (Elt Ideal) C : Vec Ideal S2000x1 .f32) y = C i := by
  obtain ⟨-, -, -, -, e0, e1, -⟩ := idx_facts t
  rw [View.read_apply]
  show C _ = C _
  refine congrArg C (funext fun a => Fin.ext ?_)
  match a with
  | ⟨0, _⟩ => show win0_2.index t (0 : Fin 2) * 2000 + 1 * (y 0).val = (i 0).val; rw [e0, h0]; omega
  | ⟨1, _⟩ =>
    show win0_2.index t (1 : Fin 2) * 1 + 1 * (y 1).val = (i 1).val
    have hy : (y 1).val < 1 := (y 1).isLt
    have hi : (i 1).val < 1 := (i 1).isLt
    rw [e1]; omega

theorem read_wl (t : Fin cfg0.N) (W : (⟨S128x128, .f32⟩ : BufTy).Contents (Elt Ideal)) :
    (((cfg0.win 3).blk t).view.read (Elt Ideal) W : Vec Ideal S128x128 .f32) = W := by
  obtain ⟨-, -, -, -, -, -, e0, e1, -⟩ := idx_facts t
  funext y
  rw [View.read_apply]
  show W _ = W _
  refine congrArg W (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem read_b (t : Fin cfg0.N) (B : (⟨S1x128, .f32⟩ : BufTy).Contents (Elt Ideal)) :
    (((cfg0.win 4).blk t).view.read (Elt Ideal) B : Vec Ideal S1x128 .f32) = B := by
  obtain ⟨-, -, -, -, -, -, -, -, e0, e1, -⟩ := idx_facts t
  funext y
  rw [View.read_apply]
  show B _ = B _
  refine congrArg B (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

theorem read_wr (t : Fin cfg0.N) (W : (⟨S128x128, .f32⟩ : BufTy).Contents (Elt Ideal)) :
    (((cfg0.win 5).blk t).view.read (Elt Ideal) W : Vec Ideal S128x128 .f32) = W := by
  obtain ⟨-, -, -, -, -, -, -, -, -, -, e0, e1, -⟩ := idx_facts t
  funext y
  rw [View.read_apply]
  show W _ = W _
  refine congrArg W (funext fun a => Fin.ext ?_)
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-- Where block `t` of the output sits in the array: block entry `(r, q)` is array entry `(2000 t + r, q)`. -/
theorem out_emb (t : Fin cfg0.N) (r : Fin 2000) (q : Fin 128) (hp : 2000 * t.val + r.val < 50000) :
    (((cfg0.win 6).blk t).view.emb (ix2 r q) : S50000x128.Idx) = ix2 (⟨2000 * t.val + r.val, hp⟩ : Fin 50000) q := by
  obtain ⟨-, -, -, -, -, -, -, -, -, -, -, -, e0, e1⟩ := idx_facts t
  refine funext fun a => Fin.ext ?_
  match a with
  | ⟨0, _⟩ => show win0_6.index t (0 : Fin 2) * 2000 + 1 * r.val = 2000 * t.val + r.val; rw [e0]; omega
  | ⟨1, _⟩ => show win0_6.index t (1 : Fin 2) * 128 + 1 * q.val = q.val; rw [e1]; omega

/-- What the body stores at block entry `y`, from the blocks of any six arrays, is the layer of those arrays at the
    array entry where `y` sits. -/
theorem blk_value (t : Fin cfg0.N)
    (X A : (⟨S50000x128, .f32⟩ : BufTy).Contents (Elt Ideal)) (C : (⟨S50000x1, .f32⟩ : BufTy).Contents (Elt Ideal))
    (Wl Wr : (⟨S128x128, .f32⟩ : BufTy).Contents (Elt Ideal)) (B : (⟨S1x128, .f32⟩ : BufTy).Contents (Elt Ideal))
    (y : S2000x128.Idx) :
    k0_pay1 (F := Ideal) (((cfg0.win 0).blk t).view.read (Elt Ideal) X) (((cfg0.win 1).blk t).view.read (Elt Ideal) A)
        (((cfg0.win 2).blk t).view.read (Elt Ideal) C) (((cfg0.win 3).blk t).view.read (Elt Ideal) Wl)
        (((cfg0.win 5).blk t).view.read (Elt Ideal) Wr) (((cfg0.win 4).blk t).view.read (Elt Ideal) B) y
      = layer X A (fun j => C (ix2 (j 0) 0)) Wl Wr (fun j => B (ix2 0 (j 0))) (((cfg0.win 6).blk t).view.emb y) := by
  obtain ⟨r, q, rfl⟩ : ∃ (r : Fin 2000) (q : Fin 128), y = ix2 r q := ⟨y 0, y 1, eq_ix2 y⟩
  have hp : 2000 * t.val + r.val < 50000 := by
    have h1 := t.isLt; have hN : cfg0.N = 25 := N_0; have h2 := r.isLt; omega
  rw [out_emb t r q hp, layer_apply]
  refine (Body.pay_apply _ _ _ _ _ _ r q).trans ?_
  rw [read_wl, read_wr, read_b]
  have hx : (fun k : Fin 128 => (((cfg0.win 0).blk t).view.read (Elt Ideal) X : Vec Ideal S2000x128 .f32) (ix2 r k))
      = fun k => X (ix2 (⟨2000 * t.val + r.val, hp⟩ : Fin 50000) k) := funext fun k => read_x t X _ _ rfl rfl
  have ha : (fun k : Fin 128 => (((cfg0.win 1).blk t).view.read (Elt Ideal) A : Vec Ideal S2000x128 .f32) (ix2 r k))
      = fun k => A (ix2 (⟨2000 * t.val + r.val, hp⟩ : Fin 50000) k) := funext fun k => read_a t A _ _ rfl rfl
  have hc : (((cfg0.win 2).blk t).view.read (Elt Ideal) C : Vec Ideal S2000x1 .f32) (ix2 r 0)
      = C (ix2 (⟨2000 * t.val + r.val, hp⟩ : Fin 50000) 0) := read_c t C _ _ rfl
  rw [hx, ha, hc]

/-- The same as an equation of blocks: the body's stored block is block `t` of the layer of the arrays. -/
theorem flush_gen (t : Fin cfg0.N)
    (X A : (⟨S50000x128, .f32⟩ : BufTy).Contents (Elt Ideal)) (C : (⟨S50000x1, .f32⟩ : BufTy).Contents (Elt Ideal))
    (Wl Wr : (⟨S128x128, .f32⟩ : BufTy).Contents (Elt Ideal)) (B : (⟨S1x128, .f32⟩ : BufTy).Contents (Elt Ideal)) :
    (cfg0.win 6).cut (grid0.coords t) (k0_pay1 (F := Ideal) (((cfg0.win 0).blk t).view.read (Elt Ideal) X) (((cfg0.win 1).blk t).view.read (Elt Ideal) A)
        (((cfg0.win 2).blk t).view.read (Elt Ideal) C) (((cfg0.win 3).blk t).view.read (Elt Ideal) Wl)
        (((cfg0.win 5).blk t).view.read (Elt Ideal) Wr) (((cfg0.win 4).blk t).view.read (Elt Ideal) B))
      = ((cfg0.win 6).blk t).view.read (Elt Ideal) (layer X A (fun j => C (ix2 (j 0) 0)) Wl Wr (fun j => B (ix2 0 (j 0)))) := by
  funext y
  exact blk_value t X A C Wl Wr B y

theorem hz : (![0, 0] : Fin 2 → Nat) = fun _ => 0 := funext fun a => by fin_cases a <;> rfl

/-- The layer of the arrays as the kernel region finds them. -/
def result (c : Dev nD) : (⟨S50000x128, .f32⟩ : BufTy).Contents (Elt Ideal) :=
  layer (V m c (Pipeline.arrRef spec0 0)) (V m c (Pipeline.arrRef spec0 1)) (fun j => V m c (Pipeline.arrRef spec0 2) (ix2 (j 0) 0))
    (V m c (Pipeline.arrRef spec0 3)) (V m c (Pipeline.arrRef spec0 5)) (fun j => V m c (Pipeline.arrRef spec0 4) (ix2 0 (j 0)))

/-- What point `t` writes back is block `t` of the layer of the arrays the region finds. -/
theorem flushed_eq (c : Dev nD) (t : Fin cfg0.N) :
    (dats m 0 c).flushed 6 t = ((cfg0.win 6).blk t).view.read (Elt Ideal) (result m c) := by
  rw [flushed6]
  unfold out0_6
  rw [View.canon_unit_zero hz]
  simp only [View.ld_unit_zero (S := S2000x128) hz, View.ld_unit_zero (S := S2000x1) hz, View.ld_unit_zero (S := S128x128) hz,
    View.ld_unit_zero (S := S1x128) hz]
  unfold iblk result
  exact flush_gen t _ _ _ _ _ _

/-- An array entry is in point `t`'s output block iff each coordinate is within the block's range on its axis. -/
theorem mem_blk (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v20).slice (win0_6.rect t)).set ↔ _
  rw [View.set_slice_whole, Rect.mem_set_unit]
  exact Iff.rfl

/-- Every entry of the result array is in some point's block: row `p` is in block `p / 2000`. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 25 := N_0
  have ht : (i 0).val / 2000 < cfg0.N := by rw [hN]; omega
  obtain ⟨-, -, -, -, -, -, -, -, -, -, -, -, e0, e1⟩ := idx_facts ⟨(i 0).val / 2000, ht⟩
  refine ⟨⟨(i 0).val / 2000, ht⟩, flush0_6 _, ?_⟩
  rw [mem_blk]
  intro a
  match a with
  | ⟨0, _⟩ =>
    show win0_6.index ⟨(i 0).val / 2000, ht⟩ (0 : Fin 2) * 2000 ≤ (i 0).val ∧ (i 0).val < win0_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_6.index ⟨(i 0).val / 2000, ht⟩ (1 : Fin 2) * 128 ≤ (i 1).val ∧ (i 1).val < win0_6.index ⟨(i 0).val / 2000, ht⟩ (1 : Fin 2) * 128 + 128
    rw [e1]; omega

/-- So the result array ends holding the layer. -/
theorem final (c : Dev nD) : (dats m 0 c).arrAt 6 cfg0.N = result m c :=
  (dats m 0 c).arrAt_eq_of_cover 6 (result m c) (fun t _ => flushed_eq m c t) cover

/-- The kernel program's run: the result array at the layer, the arguments unchanged. -/
theorem run : θ_run defs (onTc (τ := τ) (main (F := Ideal))) ⟨m, fun _ => 0, ρ⟩ fun r => ∀ c : Dev nD,
      r.2.mem ((c : Thread nD τ).loc main_v20) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

/-- A vector `[50000]` laid out as a column `[50000, 1]` and read back down the column is the vector. -/
theorem col_read (v : S50000.Idx → EReal) (h : S50000.BroadcastsInDim S50000x1 (![0] : Fin 1 → Fin S50000x1.rank)) :
    (fun j : (⟨1, ![50000]⟩ : Shape).Idx => broadcastInDim S50000x1 ![0] h v (ix2 (j 0) 0)) = v :=
  funext fun j => broadcastInDim_apply _ h v (ix2 (j 0) 0) j fun a => by
    match a with
    | ⟨0, _⟩ => show (j 0).val = if (50000 : Nat) = 1 then 0 else (j 0).val; rw [if_neg (by decide)]

/-- A vector `[128]` viewed as a row `[1, 128]` and read back along the row is the vector. -/
theorem row_read (v : S128.Idx → EReal) (h : S128.ShapeCasts S1x128) :
    (fun j : (⟨1, ![128]⟩ : Shape).Idx => shapeCast S1x128 v h (ix2 0 (j 0))) = v :=
  funext fun j => shapeCast_apply v h (ix2 0 (j 0)) j (by
    rw [Shape.rowMajor_val_one, Shape.rowMajor_val_two]
    show (j 0).val = 0 * 128 + (j 0).val
    omega)

/-- The count column the region is handed is the count vector laid out as a column. -/
theorem counts_col (c : Dev nD) :
    (V m c main_v18 : S50000x1.Idx → EReal) = broadcastInDim S50000x1 ![0] bcast_S50000_S50000x1_0 (V m c main_v17 : S50000.Idx → EReal) := by
  dsimp only [V, hostOps0]; after_results_simp <;> rfl

set_option maxHeartbeats 1000000 in
/-- The bias row the region is handed is the bias argument viewed as a row. -/
theorem bias_row (c : Dev nD) :
    (V m c main_v19 : S1x128.Idx → EReal) = shapeCast S1x128 (m ((c.tc : Thread nD τ).loc main_arg3) : S128.Idx → EReal) shapeCasts_S128_S1x128 := by
  dsimp only [V, hostOps0]; after_results_simp <;> rfl

/-- The second window's array is the neighbour-sum buffer. -/
theorem sums_ref (c : Dev nD) : V m c (Pipeline.arrRef spec0 1) = V m c main_v13 := rfl

/-- The layer the kernel computes, over the argument arrays and the neighbour sums and counts of the host prefix. -/
theorem result_eq (c : Dev nD) :
    result m c = layer (m ((c.tc : Thread nD τ).loc main_arg0)) (V m c main_v13) (V m c main_v17)
      (m ((c.tc : Thread nD τ).loc main_arg2)) (m ((c.tc : Thread nD τ).loc main_arg4)) (m ((c.tc : Thread nD τ).loc main_arg3)) := by
  have e0 : V m c (Pipeline.arrRef spec0 0) = m ((c.tc : Thread nD τ).loc main_arg0) := V_main_arg0 m c
  have e1 : V m c (Pipeline.arrRef spec0 1) = V m c main_v13 := sums_ref m c
  have e2 : V m c (Pipeline.arrRef spec0 2) = broadcastInDim S50000x1 ![0] bcast_S50000_S50000x1_0 (V m c main_v17 : S50000.Idx → EReal) := counts_col m c
  have e3 : V m c (Pipeline.arrRef spec0 3) = m ((c.tc : Thread nD τ).loc main_arg2) := V_main_arg2 m c
  have e4 : V m c (Pipeline.arrRef spec0 4) = shapeCast S1x128 (m ((c.tc : Thread nD τ).loc main_arg3) : S128.Idx → EReal) shapeCasts_S128_S1x128 := bias_row m c
  have e5 : V m c (Pipeline.arrRef spec0 5) = m ((c.tc : Thread nD τ).loc main_arg4) := V_main_arg4 m c
  unfold result
  rw [e0, e1, e2, e3, e4, e5, col_read, row_read]

end Cert.Sage.Blocks

end
-- ==== Proof.Ref.lean ====
/-
  The reference program computes the layer.

  Read one operation at a time, the reference forms the neighbour sums and the neighbour counts from the edge list,
  divides each summed row by its floored count, multiplies by the two transposed weight matrices, adds the bias,
  takes each row's Euclidean length as the square root of its sum of squares, floors it, divides and clips. A
  product with a transposed matrix at `(p, q)` is the sum over `k` of the left row `p` against ROW `q` of the
  untransposed matrix, and the host's sum over a row starts from the zero word, which adds nothing.
-/
import proofs.«180660_j43593918054565_1_alg».proof.Proof.Gen.ReferenceIdeal.Read
import proofs.«180660_j43593918054565_1_alg».proof.Proof.Spec

noncomputable section

namespace Cert.Sage.Ref

open Idealize.ShloMosaic Idealize.ShloMosaic.ValueIdx Cert.ReferenceIdeal Cert.ReferenceIdeal.Read

/-- The reference's neighbour sums and neighbour counts, as it computes them from the features and the edge list. -/
abbrev agg (x0 : (⟨S50000x128, .f32⟩ : BufTy).Contents (Elt Ideal)) (x1 : (⟨S2x800000, .i32⟩ : BufTy).Contents (Elt Ideal)) :=
  val_main_v13 (F := Ideal) x0 x1
abbrev cnt (x1 : (⟨S2x800000, .i32⟩ : BufTy).Contents (Elt Ideal)) := val_main_v17 (F := Ideal) x1

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal))

/-! Which entries each stage reads: the product at `(p, q)` and term `k` reads the left row `p` at `k`, the transposed
    matrix at `(k, q)`, that is the matrix at `(q, k)`, and the count and the bias at the node `p` and the feature `q`. -/

theorem lrow (p : Fin 50000) (q k : Fin 128) : lidx_main_v24 (ix2 p q) k = ix2 p k :=
  funext fun a => by match a with | ⟨0, _⟩ => rfl | ⟨1, _⟩ => rfl
theorem rrow (p : Fin 50000) (q k : Fin 128) : idx_main_v23 (ridx_main_v24 (ix2 p q) k) = ix2 q k :=
  funext fun a => by match a with | ⟨0, _⟩ => rfl | ⟨1, _⟩ => rfl
theorem crow (p : Fin 50000) (k : Fin 128) : idx_main_v20 (idx_main_v21 (ix2 p k)) = ix1 p :=
  funext fun a => by match a with | ⟨0, _⟩ => rfl
theorem brow (p : Fin 50000) (q : Fin 128) : idx_main_v25 (idx_main_v26 (ix2 p q)) = ix1 q :=
  funext fun a => by match a with | ⟨0, _⟩ => rfl
theorem lrow' (p : Fin 50000) (q k : Fin 128) : lidx_main_v29 (ix2 p q) k = ix2 p k :=
  funext fun a => by match a with | ⟨0, _⟩ => rfl | ⟨1, _⟩ => rfl
theorem rrow' (p : Fin 50000) (q k : Fin 128) : idx_main_v28 (ridx_main_v29 (ix2 p q) k) = ix2 q k :=
  funext fun a => by match a with | ⟨0, _⟩ => rfl | ⟨1, _⟩ => rfl

/-- The row before normalisation, at `(p, q)`. -/
theorem pre_apply (p : Fin 50000) (q : Fin 128) :
    val_main_v30 (F := Ideal) x0 x1 x2 x3 x4 (ix2 p q)
      = lin (fun k => x0 (ix2 p k)) (fun k => agg x0 x1 (ix2 p k)) (cnt x1 (ix1 p)) x2 x4 (fun q => x3 (ix1 q)) q := by
  rw [val_main_v30_apply, val_main_v27_apply, val_main_v24_apply, val_main_v29_apply, val_main_v26_apply, val_main_v25_apply]
  rw [Ideal.addf_def, Ideal.addf_def]
  unfold lin
  refine congrArg₂ (· + ·) (congrArg₂ (· + ·) (Finset.sum_congr rfl fun k _ => ?_) ?_) (Finset.sum_congr rfl fun k _ => ?_)
  · rw [val_main_v22_apply, val_main_v23_apply, val_main_v21_apply, val_main_v20_apply, val_main_v19_apply,
        val_main_v18_apply, val_main_cst_3_apply, lrow, rrow, crow]
    rfl
  · rw [brow]
  · rw [val_main_v28_apply, lrow', rrow']

/-- The sum of squares of row `p` runs over the row's 128 entries. -/
theorem nrow (p : Fin 50000) (q k : Fin 128) : idx_main_call0_v1 (idx_main_call0_v2 (idx_main_v34 (ix2 p q))) k = ix2 p k :=
  funext fun a => by match a with | ⟨0, _⟩ => rfl | ⟨1, _⟩ => rfl

/-- The reference's result at `(p, q)` is node `p`'s output row at `q`. -/
theorem out_apply (p : Fin 50000) (q : Fin 128) :
    val_main_v36 (F := Ideal) x0 x1 x2 x3 x4 (ix2 p q)
      = rowOut (fun k => x0 (ix2 p k)) (fun k => agg x0 x1 (ix2 p k)) (cnt x1 (ix1 p)) x2 x4 (fun q => x3 (ix1 q)) q := by
  rw [val_main_v36_apply, val_main_v35_apply, val_main_v34_apply, val_main_v33_apply, val_main_v31_apply,
    val_main_call0_v2_apply, val_main_call0_v1_apply, val_main_v32_apply, val_main_cst_4_apply, val_main_call1_v0_apply,
    val_main_call1_cst_apply, val_main_call0_cst_apply]
  have hsum : (∑ k : Fin 128, val_main_call0_v0 (F := Ideal) x0 x1 x2 x3 x4 (idx_main_call0_v1 (idx_main_call0_v2 (idx_main_v34 (ix2 p q))) k))
      = ∑ j : Fin 128, lin (fun k => x0 (ix2 p k)) (fun k => agg x0 x1 (ix2 p k)) (cnt x1 (ix1 p)) x2 x4 (fun q => x3 (ix1 q)) j
          * lin (fun k => x0 (ix2 p k)) (fun k => agg x0 x1 (ix2 p k)) (cnt x1 (ix1 p)) x2 x4 (fun q => x3 (ix1 q)) j :=
    Finset.sum_congr rfl fun k _ => by rw [nrow, val_main_call0_v0_apply, pre_apply, Ideal.mulf_def]
  rw [hsum, pre_apply, Ideal.maximumf_def, Ideal.hostDivf_def, Ideal.maximumf_def, Ideal.hostUnary_sqrt_def]
  simp only [Ideal.ofBits_def, Ideal.ofBits_zero_f32, zero_add]
  unfold rowOut
  rw [show zero = (0 : EReal) from Ideal.ofBits_zero_f32]

/-- The reference's result is the layer of the features, its own neighbour sums and counts, and the weights. -/
theorem result_eq : val_main_v36 (F := Ideal) x0 x1 x2 x3 x4 = layer x0 (agg x0 x1) (cnt x1) x2 x4 x3 := by
  funext i
  obtain ⟨p, q, rfl⟩ : ∃ (p : Fin 50000) (q : Fin 128), i = ix2 p q := ⟨i 0, i 1, eq_ix2 i⟩
  rw [out_apply, layer_apply]

end Cert.Sage.Ref

end
-- ==== Proof.Prefix.lean ====
/-
  The two programs share their first steps.

  Before anything else both programs split the edge list into sources and destinations, wrap negative source indices
  around, gather the sources' feature rows, add them into their destinations' rows, and add a one into each
  destination's count. The kernel program does this on the host before its region, the reference as the first
  operations of its one host program; the operations, their order and their constants are the same, so the
  neighbour sums and the neighbour counts the kernel region is handed are the reference's own, as terms of the
  feature array and the edge list.
-/
import proofs.«180660_j43593918054565_1_alg».proof.Proof.Gen.KernelIdeal.Frame
import proofs.«180660_j43593918054565_1_alg».proof.Proof.Gen.ReferenceIdeal.Read
import Idealize.ShloMosaic.Lib.StableHlo.Run

noncomputable section

namespace Cert.Sage.Prefix

open Idealize.ShloMosaic Idealize.ShloMosaic.TcCoe Idealize.SL.Sem
open Cert.KernelIdeal Cert.KernelIdeal.Gen

variable (m : (ℓ : Loc nD τ sig) → Buf (Elt Ideal) ℓ)

set_option maxHeartbeats 1000000 in
/-- The neighbour sums the kernel region finds are the reference's, of the same features and edge list. -/
theorem sums_eq (c : Dev nD) :
    (V m c main_v13 : S50000x128.Idx → EReal)
      = Cert.ReferenceIdeal.Read.val_main_v13 (F := Ideal) (m ((c.tc : Thread nD τ).loc main_arg0)) (m ((c.tc : Thread nD τ).loc main_arg1)) := by
  dsimp only [V, hostOps0]; after_results_simp <;> rfl

set_option maxHeartbeats 1000000 in
/-- The neighbour counts the kernel's host prefix forms are the reference's, of the same edge list. -/
theorem counts_eq (c : Dev nD) :
    (V m c main_v17 : S50000.Idx → EReal)
      = Cert.ReferenceIdeal.Read.val_main_v17 (F := Ideal) (m ((c.tc : Thread nD τ).loc main_arg1)) := by
  dsimp only [V, hostOps0]; after_results_simp <;> rfl

end Cert.Sage.Prefix

end
-- ==== Proof.lean ====
/-
  A fused graph-convolution kernel computes what its jnp reference computes.

  Both programs take node features `x` (50000 × 128), an edge list (2 × 800000) and the weights `W_l`, `b_l`, `W_r`.
  Both first form, on the host and by the same operations, each node's sum `agg` of its in-neighbours' feature rows
  and its in-neighbour count `cnt`. Then for every node `p` and output feature `q`
      y (p, q) = (∑ k, (agg (p, k) / max (cnt p) 1) · W_l (q, k)) + b_l q + ∑ k, x (p, k) · W_r (q, k)
      out (p, q) = max (y (p, q) / max (sqrt (∑ j, y (p, j)²)) ε) 0.
  The kernel does this for 2000 nodes at a time over a grid of 25 points, contracting each weight matrix along its
  second axis with operands narrowed to sixteen bits; the reference transposes the matrices and uses host products, a
  host row sum and a host square root. On the extended reals the narrowing is the identity, both products are the
  same sum over `k`, both row sums are the same sum over `j` (the host's starts from the zero word), and division,
  maximum and square root are one function on either side. A node's output uses only that node's rows, so the
  kernel's 25 blocks are the 25 row blocks of the one whole-array function, and they tile the result.

  The three frames: the kernel's two are the generated frame runs; the reference's is its generated run with the
  result dropped. The idealization rewrote nothing, so there is nothing to preserve. The equivalence sets the
  kernel's run, read block by block, beside the reference's run, read operation by operation: one function.
-/
import proofs.«180660_j43593918054565_1_alg».proof.Defs
import proofs.«180660_j43593918054565_1_alg».proof.Proof.Gen.Kernel
import proofs.«180660_j43593918054565_1_alg».proof.Proof.Gen.Kernel.Skeleton
import proofs.«180660_j43593918054565_1_alg».proof.Proof.Gen.Kernel.Launch
import proofs.«180660_j43593918054565_1_alg».proof.Proof.Gen.Kernel.Points
import proofs.«180660_j43593918054565_1_alg».proof.Proof.Gen.Kernel.Frame
import proofs.«180660_j43593918054565_1_alg».proof.Proof.Gen.KernelIdeal
import proofs.«180660_j43593918054565_1_alg».proof.Proof.Gen.KernelIdeal.Skeleton
import proofs.«180660_j43593918054565_1_alg».proof.Proof.Gen.KernelIdeal.Launch
import proofs.«180660_j43593918054565_1_alg».proof.Proof.Gen.KernelIdeal.Points
import proofs.«180660_j43593918054565_1_alg».proof.Proof.Gen.KernelIdeal.Frame
import proofs.«180660_j43593918054565_1_alg».proof.Proof.Gen.ReferenceIdeal
import proofs.«180660_j43593918054565_1_alg».proof.Proof.Gen.Pre_finite_inputs
import proofs.«180660_j43593918054565_1_alg».proof.Proof.Gen.KernelIdeal.Value
import proofs.«180660_j43593918054565_1_alg».proof.Proof.Gen.ReferenceIdeal.Run
import proofs.«180660_j43593918054565_1_alg».proof.Proof.Gen.ReferenceIdeal.Read
import proofs.«180660_j43593918054565_1_alg».proof.Proof.Blocks
import proofs.«180660_j43593918054565_1_alg».proof.Proof.Ref
import proofs.«180660_j43593918054565_1_alg».proof.Proof.Prefix
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the five arguments the kernel program's result array ends at the layer of the
    arguments and of the host prefix's neighbour sums and counts, and the reference's at the same layer of its own
    arguments and its own neighbour sums and counts, which are the same terms of the same arrays. -/
theorem algebraic : Cert.algebraic_KernelIdeal_ReferenceIdeal := by
  intro m ρ m' ρ' _ hagree
  refine ⟨fun c => Cert.Sage.Blocks.result m c, Cert.Sage.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.Sage.Ref.result_eq]
  refine Eq.trans ?_ (Cert.Sage.Blocks.result_eq m c).symm
  rw [Cert.Sage.Prefix.sums_eq, Cert.Sage.Prefix.counts_eq, (hagree c).1, (hagree c).2.1, (hagree c).2.2.1, (hagree c).2.2.2.1,
    (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
